-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 33
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageEntry.lean ====
/-
  One entry of the dense stage of a mean-aggregating graph layer, at the extended reals.

  For a node's feature row `x`, its aggregated neighbour row `h`, the two weight columns `ws`, `wn` that
  produce output channel `q`, and that channel's bias `b`, the entry is

      max ( Σₖ x k · ws k  +  Σₖ h k · wn k  +  b ,  0 )

  with the zero kept as the value of the float word `0x00000000`. Both programs compute every output entry as
  this one function of a row of the features, the same row of the aggregate, a column of each weight matrix and
  a bias entry; they differ only in how the rows reach it (whole arrays on one side, blocks of 10000 rows on the
  other), so no law of the extended reals is needed beyond reading each side at an index.
-/
import Idealize.ShloMosaic.PureOps.Ideal.Laws
import Idealize.ShloMosaic.Lib.ValueIdx

noncomputable section

namespace Cert.Sage

open Idealize.ShloMosaic Idealize.ShloMosaic.ValueIdx

/-- The entry: the two row-by-column products added, the bias added, clipped below at the zero word. -/
def entry (x h ws wn : Fin 64 → EReal) (b : EReal) : EReal :=
  max (((∑ k : Fin 64, x k * ws k) + ∑ k : Fin 64, h k * wn k) + b) (Ideal.ofBits .f32 0x00000000#32)

/-- Equal rows, columns and bias give equal entries. -/
theorem entry_congr {x x' h h' ws ws' wn wn' : Fin 64 → EReal} {b b' : EReal} (hx : ∀ k, x k = x' k) (hh : ∀ k, h k = h' k)
    (hws : ∀ k, ws k = ws' k) (hwn : ∀ k, wn k = wn' k) (hb : b = b') : entry x h ws wn b = entry x' h' ws' wn' b' := by
  rw [funext hx, funext hh, funext hws, funext hwn, hb]

/-- The layer over `M` rows, at row `p` and channel `q`: `entry` of row `p` of the features and of the aggregate,
    column `q` of each weight matrix, and bias entry `q`. -/
def layerAt {M : Nat} (x h : (⟨2, ![M, 64]⟩ : Shape).Idx → EReal) (ws wn : (⟨2, ![64, 64]⟩ : Shape).Idx → EReal)
    (b : Fin 64 → EReal) (p : Fin M) (q : Fin 64) : EReal :=
  entry (fun k => x (ix2 p k)) (fun k => h (ix2 p k)) (fun k => ws (ix2 k q)) (fun k => wn (ix2 k q)) (b q)

/-- The layer as an array of `M` rows and 64 channels. -/
def layer {M : Nat} (x h : (⟨2, ![M, 64]⟩ : Shape).Idx → EReal) (ws wn : (⟨2, ![64, 64]⟩ : Shape).Idx → EReal)
    (b : Fin 64 → EReal) : (⟨2, ![M, 64]⟩ : Shape).Idx → EReal :=
  fun i => layerAt x h ws wn b ⟨(i 0).val, idx2_lt0 i⟩ ⟨(i 1).val, idx2_lt1 i⟩

theorem layer_ix2 {M : Nat} (x h : (⟨2, ![M, 64]⟩ : Shape).Idx → EReal) (ws wn : (⟨2, ![64, 64]⟩ : Shape).Idx → EReal)
    (b : Fin 64 → EReal) (p : Fin M) (q : Fin 64) : layer x h ws wn b (ix2 p q) = layerAt x h ws wn b p q := rfl

end Cert.Sage

end
-- ==== Proof.RegionArrays.lean ====
/-
  The arrays the kernel's one region finds, the layer of them, and where each staged block sits in its array.

  The region runs the body at 10 grid points; point t stages rows 10000·t … 10000·t + 9999 of the features and
  of the aggregate, and the two weight matrices and the bias row whole.
-/
import proofs.«142772_j76682346102897_1_alg».proof.Proof.Gen.KernelIdeal.Value
import proofs.«142772_j76682346102897_1_alg».proof.Proof.SageEntry
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zeroOffsets : (![0, 0] : Fin 2 → Nat) = fun _ => 0 := funext fun a => by fin_cases a <;> rfl

/-! ## The arrays as the region finds them, by their literal types -/

abbrev featArr (c : Dev nD) : S100000x64.Idx → EReal := V m c main_arg0
abbrev aggArr (c : Dev nD) : S100000x64.Idx → EReal := V m c main_v18
abbrev selfArr (c : Dev nD) : S64x64.Idx → EReal := V m c main_arg3
abbrev neighArr (c : Dev nD) : S64x64.Idx → EReal := V m c main_arg4
abbrev biasRow (c : Dev nD) : S1x64.Idx → EReal := V m c main_v19

/-- The layer of those arrays. -/
def regionLayer (c : Dev nD) : S100000x64.Idx → EReal :=
  Cert.Sage.layer (M := 100000) (featArr m c) (aggArr m c) (selfArr m c) (neighArr m c) (fun q => biasRow m c (ix2 0 q))

theorem regionLayer_apply (c : Dev nD) (i : S100000x64.Idx) :
    regionLayer m c i = Cert.Sage.entry (fun k => featArr m c (ix2 ⟨(i 0).val, idx2_lt0 i⟩ k)) (fun k => aggArr m c (ix2 ⟨(i 0).val, idx2_lt0 i⟩ k))
      (fun k => selfArr m c (ix2 k ⟨(i 1).val, idx2_lt1 i⟩)) (fun k => neighArr m c (ix2 k ⟨(i 1).val, idx2_lt1 i⟩)) (biasRow m c (ix2 0 ⟨(i 1).val, idx2_lt1 i⟩)) := rfl

/-! ## Where each window's block sits -/

/-- The printed index maps over the ten points: the row windows move with the point, the others stay. -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the feature block at point t is row 10000·t + p of the feature array. -/
theorem featBlock_at (c : Dev nD) (t : Fin cfg0.N) (p : Fin 10000) (k : Fin 64) (r : Fin 100000) (hr : r.val = t.val * 10000 + p.val) :
    (iblk m c 0 t : S10000x64.Idx → EReal) (ix2 p k) = featArr m c (ix2 r k) := by
  obtain ⟨e0, e1, -⟩ := blockIndices t
  have hidx : ((cfg0.win 0).blk t).view.emb (ix2 p k) = (ix2 r k : S100000x64.Idx) := by
    funext a; apply Fin.ext
    match a with
    | ⟨0, _⟩ => show win0_0.index t (0 : Fin 2) * 10000 + 1 * p.val = r.val; omega
    | ⟨1, _⟩ => show win0_0.index t (1 : Fin 2) * 64 + 1 * k.val = k.val; omega
  unfold iblk
  rw [View.read_apply, hidx, cast_eq]

/-- Row p of the aggregate block at point t is row 10000·t + p of the aggregate. -/
theorem aggBlock_at (c : Dev nD) (t : Fin cfg0.N) (p : Fin 10000) (k : Fin 64) (r : Fin 100000) (hr : r.val = t.val * 10000 + p.val) :
    (iblk m c 1 t : S10000x64.Idx → EReal) (ix2 p k) = aggArr m c (ix2 r k) := by
  obtain ⟨-, -, e0, e1, -⟩ := blockIndices t
  have hidx : ((cfg0.win 1).blk t).view.emb (ix2 p k) = (ix2 r k : S100000x64.Idx) := by
    funext a; apply Fin.ext
    match a with
    | ⟨0, _⟩ => show win0_1.index t (0 : Fin 2) * 10000 + 1 * p.val = r.val; omega
    | ⟨1, _⟩ => show win0_1.index t (1 : Fin 2) * 64 + 1 * k.val = k.val; omega
  unfold iblk
  rw [View.read_apply, hidx, cast_eq]

/-- The staged self-weight block is the whole matrix. -/
theorem selfBlock_at (c : Dev nD) (t : Fin cfg0.N) (k q : Fin 64) :
    (iblk m c 2 t : S64x64.Idx → EReal) (ix2 k q) = selfArr m c (ix2 k q) := by
  obtain ⟨-, -, -, -, e0, e1, -⟩ := blockIndices t
  have hidx : ((cfg0.win 2).blk t).view.emb (ix2 k q) = (ix2 k q : S64x64.Idx) := by
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  unfold iblk
  rw [View.read_apply, hidx, cast_eq]

/-- The staged neighbour-weight block is the whole matrix. -/
theorem neighBlock_at (c : Dev nD) (t : Fin cfg0.N) (k q : Fin 64) :
    (iblk m c 3 t : S64x64.Idx → EReal) (ix2 k q) = neighArr m c (ix2 k q) := by
  obtain ⟨-, -, -, -, -, -, e0, e1, -⟩ := blockIndices t
  have hidx : ((cfg0.win 3).blk t).view.emb (ix2 k q) = (ix2 k q : S64x64.Idx) := by
    funext a; apply Fin.ext
    match a with
    | ⟨0, _⟩ => show win0_3.index t (0 : Fin 2) * 64 + 1 * k.val = k.val; omega
    | ⟨1, _⟩ => show win0_3.index t (1 : Fin 2) * 64 + 1 * q.val = q.val; omega
  unfold iblk
  rw [View.read_apply, hidx, cast_eq]

/-- The staged bias block is the whole row. -/
theorem biasBlock_at (c : Dev nD) (t : Fin cfg0.N) (q : Fin 64) :
    (iblk m c 4 t : S1x64.Idx → EReal) (ix2 0 q) = biasRow m c (ix2 0 q) := by
  obtain ⟨-, -, -, -, -, -, -, -, e0, e1, -⟩ := blockIndices t
  have hidx : ((cfg0.win 4).blk t).view.emb (ix2 0 q) = (ix2 0 q : S1x64.Idx) := by
    funext a; apply Fin.ext
    match a with
    | ⟨0, _⟩ => show win0_4.index t (0 : Fin 2) * 1 + 1 * (0 : Fin 1).val = (0 : Fin 1).val; omega
    | ⟨1, _⟩ => show win0_4.index t (1 : Fin 2) * 64 + 1 * q.val = q.val; omega
  unfold iblk
  rw [View.read_apply, hidx, cast_eq]

end Cert.KernelIdeal.Hand

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.BlockPayload.lean ====
/-
  What the kernel body stores for one block of 10000 rows, read at an entry.

  The body loads a block `x` of the features, the matching block `h` of the aggregate, the two weight
  matrices and the bias as a 1×64 row, and stores  max (x·Ws + h·Wn + bias, 0).  At the extended reals the
  changes of float format are the identity, each matrix product into the zero accumulator is the plain sum
  over the contracted coordinate, and the bias row is repeated down the rows; so entry (p, q) of the stored
  block is `Sage.entry` of row p of `x` and of `h`, column q of each weight matrix, and bias entry (0, q).
-/
import proofs.«142772_j76682346102897_1_alg».proof.Proof.Gen.KernelIdeal.Skeleton
import proofs.«142772_j76682346102897_1_alg».proof.Proof.LibRowwise
import proofs.«142772_j76682346102897_1_alg».proof.Proof.SageEntry
import Idealize.ShloMosaic.Lib.Pipeline.Value

noncomputable section

namespace Cert.KernelIdeal.Hand

open Idealize.ShloMosaic Idealize.ShloMosaic.ValueIdx
open Cert.KernelIdeal Cert.KernelIdeal.Gen

/-- The body's product record contracts axis 1 of the left operand with axis 0 of the right and has no batch
    axis: it is the plain 10000×64 by 64×64 product. -/
theorem dot_plain : dot_S10000x64_S64x64_S10000x64_1_0_0_1_n_n = DotDims.plain 10000 64 64 :=
  Cert.Lib.Rowwise.eq_plain _ rfl rfl rfl rfl rfl rfl

/-- A block times a weight matrix into the zero accumulator, at (p, q): row p against column q. -/
theorem product_at (a : FVec Ideal S10000x64 .bf16) (w : FVec Ideal S64x64 .bf16) (p : Fin 10000) (q : Fin 64) :
    matmul dot_S10000x64_S64x64_S10000x64_1_0_0_1_n_n none a w (constant S10000x64 .f32 0x00000000#32) (ix2 p q)
      = ∑ k : Fin 64, a (ix2 p k) * w (ix2 k q) := by
  rw [dot_plain]
  exact Cert.Lib.Rowwise.plain_matmul_zero_apply none a w p q

/-- The bias row repeated down the 10000 rows, at (p, q): the row's entry (0, q). -/
theorem biasRows_at (b : FVec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self]
  refine broadcastTo_apply b broadcasts_S1x64_S10000x64 (ix2 p q) (ix2 0 q) fun a => ?_
  match a with
  | ⟨0, _⟩ => exact (if_pos rfl).symm
  | ⟨1, _⟩ => exact (if_neg (by decide : ¬((64 : Nat) = 1))).symm

/-- The stored block at (p, q). -/
theorem payload_at (x h : FVec Ideal S10000x64 .f32) (ws wn : FVec Ideal S64x64 .f32) (b : FVec Ideal S1x64 .f32)
    (p : Fin 10000) (q : Fin 64) :
    k0_pay1 (F := Ideal) x h ws wn b (ix2 p q)
      = Cert.Sage.entry (fun k => x (ix2 p k)) (fun k => h (ix2 p k)) (fun k => ws (ix2 k q)) (fun k => wn (ix2 k q)) (b (ix2 0 q)) := by
  unfold k0_pay1 Cert.Sage.entry
  show max ((matmul dot_S10000x64_S64x64_S10000x64_1_0_0_1_n_n none (x : FVec Ideal S10000x64 .bf16) (ws : FVec Ideal S64x64 .bf16) (constant S10000x64 .f32 0x00000000#32) (ix2 p q)
        + matmul dot_S10000x64_S64x64_S10000x64_1_0_0_1_n_n none (shapeCast S10000x64 h shapeCasts_S10000x64_S10000x64 : FVec Ideal S10000x64 .bf16) (wn : FVec Ideal S64x64 .bf16) (constant S10000x64 .f32 0x00000000#32) (ix2 p q))
        + broadcastTo S10000x64 (shapeCast S1x64 b shapeCasts_S1x64_S1x64) broadcasts_S1x64_S10000x64 (ix2 p q))
      (Ideal.ofBits .f32 0x00000000#32) = _
  refine congrArg (fun z => max z (Ideal.ofBits .f32 0x00000000#32)) ?_
  refine congrArg₂ (· + ·) (congrArg₂ (· + ·) (product_at _ _ p q) ?_) (biasRows_at b p q)
  refine (product_at _ _ p q).trans ?_
  rw [shapeCast_self]

end Cert.KernelIdeal.Hand

end
-- ==== Proof.BlockWritten.lean ====
/-
  What grid point t writes back: block t of the layer of the arrays the region found.

  The body's stored block, entry by entry, is `Sage.entry` of the staged blocks' rows and columns
  (`BlockPayload`); each staged block is read where its array holds it (`RegionArrays`); and the array index of
  entry (p, q) of the block written at point t is (10000·t + p, q).
-/
import proofs.«142772_j76682346102897_1_alg».proof.Proof.RegionArrays
import proofs.«142772_j76682346102897_1_alg».proof.Proof.BlockPayload

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-! ## What point t writes back -/

/-- The stored block at a block index j, by its coordinates. -/
theorem payload_idx (x h : FVec Ideal S10000x64 .f32) (ws wn : FVec Ideal S64x64 .f32) (b : FVec Ideal S1x64 .f32) (j : S10000x64.Idx) :
    k0_pay1 (F := Ideal) x h ws wn b j
      = Cert.Sage.entry (fun k => x (ix2 ⟨(j 0).val, idx2_lt0 j⟩ k)) (fun k => h (ix2 ⟨(j 0).val, idx2_lt0 j⟩ k))
          (fun k => ws (ix2 k ⟨(j 1).val, idx2_lt1 j⟩)) (fun k => wn (ix2 k ⟨(j 1).val, idx2_lt1 j⟩)) (b (ix2 0 ⟨(j 1).val, idx2_lt1 j⟩)) :=
  (congrArg (k0_pay1 (F := Ideal) x h ws wn b) (eq_ix2 j)).trans (payload_at x h ws wn b ⟨(j 0).val, idx2_lt0 j⟩ ⟨(j 1).val, idx2_lt1 j⟩)

/-- Point t writes back block t of the layer. -/
theorem flushed_eq (c : Dev nD) (t : Fin cfg0.N) :
    (dats m 0 c).flushed 5 t = ((cfg0.win 5).blk t).view.read (Elt Ideal) (regionLayer m c) := by
  rw [Value.flushed5]
  unfold out0_5
  rw [View.canon_unit_zero zeroOffsets]
  simp only [View.ld_unit_zero (S := S10000x64) zeroOffsets, View.ld_unit_zero (S := S64x64) zeroOffsets, View.ld_unit_zero (S := S1x64) zeroOffsets]
  funext j
  have hj0 : (j 0).val < 10000 := (j 0).isLt
  have hj1 : (j 1).val < 64 := (j 1).isLt
  obtain ⟨-, -, -, -, -, -, -, -, -, -, e0, e1⟩ := blockIndices t
  rw [View.read_apply, cast_eq]
  show k0_pay1 (F := Ideal) (iblk m c 0 t) (iblk m c 1 t) (iblk m c 2 t) (iblk m c 3 t) (iblk m c 4 t) j = _
  have hI0 : ((((cfg0.win 5).blk t).view.emb j) 0).val = t.val * 10000 + (j 0).val := by
    show win0_5.index t (0 : Fin 2) * 10000 + 1 * (j 0).val = _; omega
  have hI1 : ((((cfg0.win 5).blk t).view.emb j) 1).val = (j 1).val := by
    show win0_5.index t (1 : Fin 2) * 64 + 1 * (j 1).val = _; omega
  rw [regionLayer_apply]
  refine (payload_idx (iblk m c 0 t) (iblk m c 1 t) (iblk m c 2 t) (iblk m c 3 t) (iblk m c 4 t) j).trans ?_
  refine Cert.Sage.entry_congr (fun k => ?_) (fun k => ?_) (fun k => ?_) (fun k => ?_) ?_
  · exact featBlock_at m c t _ k _ hI0
  · exact aggBlock_at m c t _ k _ hI0
  · exact (selfBlock_at m c t k _).trans (congrArg (fun q => selfArr m c (ix2 k q)) (Fin.ext hI1.symm))
  · exact (neighBlock_at m c t k _).trans (congrArg (fun q => neighArr m c (ix2 k q)) (Fin.ext hI1.symm))
  · exact (biasBlock_at m c t _).trans (congrArg (fun q => biasRow m c (ix2 0 q)) (Fin.ext hI1.symm))

end Cert.KernelIdeal.Hand

end
-- ==== Proof.Aggregate.lean ====
/-
  The mean-aggregated neighbour features, which both programs compute on the host by the same operations.

  From the features `x`, the edge sources `src` and the edge targets `dst`:  negative sources are wrapped by the
  node count, the source rows are gathered, scatter-added into a zero array at the target rows, and each row is
  divided by its in-degree (a scatter-add of ones at the targets) clipped below at one. The kernel's program
  runs this chain before its one region and the reference runs it before its two matrix products; the two
  chains are the same operations over records that differ in name only, so the aggregate is carried as ONE
  function `aggregate` and never opened. Also here: the bias as the region finds it, a 1×64 row whose entry
  (0, q) is the bias vector's entry q.
-/
import proofs.«142772_j76682346102897_1_alg».proof.Proof.Gen.KernelIdeal.Frame
import proofs.«142772_j76682346102897_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

/-- The aggregate: the gathered source rows summed at their target rows, each row divided by its clipped in-degree. -/
def aggregate (x : (⟨S100000x64, .f32⟩ : BufTy).Contents (Elt Ideal)) (src dst : (⟨S1600000, .i32⟩ : BufTy).Contents (Elt Ideal)) :
    (⟨S100000x64, .f32⟩ : BufTy).Contents (Elt Ideal) :=
  Host.divf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (dst)) (Host.gather gather_S100000x64_S1600000x1_S1600000x64_1_0_n_n_0_1_164 (x) (broadcastInDim S1600000x1 ![0] bcast_S1600000_S1600000x1_0 (select (cmpi .slt (src) (broadcastInDim S1600000 ![] bcast_S_S1600000 (constantI S_ 32 0#32))) (addi (src) (broadcastInDim S1600000 ![] bcast_S_S1600000 (constantI S_ 32 100000#32))) (src)))))
    (broadcastInDim S100000x64 ![0, 1] bcast_S100000x1_S100000x64_0_1 (broadcastInDim S100000x1 ![0] bcast_S100000_S100000x1_0 (maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (dst)) (broadcastInDim S1600000 ![] bcast_S_S1600000 (constant (F := Ideal) S_ .f32 0x3F800000#32))) (broadcastInDim S100000 ![] bcast_S_S100000 (constant (F := Ideal) S_ .f32 0x3F800000#32)))))

/-- The reference's stage for the same array is the same function: its records are the kernel program's under
    other names. -/
theorem aggregate_eq_reference (x : (⟨S100000x64, .f32⟩ : BufTy).Contents (Elt Ideal)) (src dst : (⟨S1600000, .i32⟩ : BufTy).Contents (Elt Ideal)) :
    aggregate x src dst = Cert.ReferenceIdeal.Read.val_main_v18 (F := Ideal) x src dst := by
  have e1 : gather_S100000x64_S1600000x1_S1600000x64_1_0_n_n_0_1_164 = Cert.ReferenceIdeal.gather_S100000x64_S1600000x1_S1600000x64_1_0_n_n_0_1_164 := rfl
  have e2 : scatter_S100000x64_S1600000x1_S1600000x64_1_0_0_1 = Cert.ReferenceIdeal.scatter_S100000x64_S1600000x1_S1600000x64_1_0_0_1 := rfl
  have e3 : scatter_S100000_S1600000x1_S1600000_n_0_0_1 = Cert.ReferenceIdeal.scatter_S100000_S1600000x1_S1600000_n_0_0_1 := rfl
  unfold aggregate
  rw [e1, e2, e3]
  rfl

variable (m : (ℓ : Loc nD τ sig) → Buf (Elt Ideal) ℓ)

/-- When the region is entered, the array its second window stages holds the aggregate of the launch arguments. -/
theorem entry_aggregate (c : Dev nD) : (V m c main_v18 : S100000x64.Idx → EReal)
    = aggregate (m ((c : Thread nD τ).loc main_arg0)) (m ((c : Thread nD τ).loc main_arg1)) (m ((c : Thread nD τ).loc main_arg2)) := by
  unfold aggregate
  show StableHlo.after hostOps0 (fun b => m (c, b)) (Proc.devRef .tc main_v18) = _
  after_results_simp <;> rfl

/-- and the array its fifth window stages holds the bias vector recast as one row. -/
theorem entry_biasRow (c : Dev nD) : (V m c main_v19 : S1x64.Idx → EReal)
    = shapeCast S1x64 (m ((c : Thread nD τ).loc main_arg5)) shapeCasts_S64_S1x64 := by
  show StableHlo.after hostOps0 (fun b => m (c, b)) (Proc.devRef .tc main_v19) = _
  after_results_simp <;> rfl

/-- A vector of 64 recast as one row reads, at (0, q), the vector at q. -/
theorem row_at (b : S64.Idx → EReal) (q : Fin 64) : shapeCast S1x64 b shapeCasts_S64_S1x64 (ix2 0 q) = b (ix1 q) := by
  refine shapeCast_apply b shapeCasts_S64_S1x64 (ix2 0 q) (ix1 q) ?_
  rw [Shape.rowMajor_val_one, Shape.rowMajor_val_two]
  show q.val = 0 * 64 + q.val
  omega

end Cert.KernelIdeal.Hand

end
-- ==== Proof.KernelLayer.lean ====
/-
  The kernel's result array is the layer of its arguments.

  Point t writes back block t of the layer of the arrays the region found (`BlockWritten`); the ten blocks
  cover the 100000 rows, so the array ends holding that layer; and the arrays the region found are the launch
  arguments, the aggregate of the launch arguments (`Aggregate`) and the bias vector as a row.
-/
import proofs.«142772_j76682346102897_1_alg».proof.Proof.BlockWritten
import proofs.«142772_j76682346102897_1_alg».proof.Proof.Aggregate

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-! ## The ten blocks cover the array -/

theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v20).slice (win0_5.rect t)).set ↔ _
  rw [View.set_slice_whole, Rect.mem_set_unit]
  exact Iff.rfl

/-- Row r lies in the block of point r / 10000. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, -, -, -, -, e0, e1⟩ := blockIndices t
  refine ⟨t, flush0_5 t, ?_⟩
  rw [mem_block]
  intro a
  have htv : t.val = (i 0).val / 10000 := rfl
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- So the result array ends holding the layer of the arrays the region found. -/
theorem final_regionLayer (c : Dev nD) : (dats m 0 c).arrAt 5 cfg0.N = regionLayer m c :=
  (dats m 0 c).arrAt_eq_of_cover 5 (regionLayer m c) (fun t _ => flushed_eq m c t) covered

/-! ## In terms of the launch arguments -/

/-- The arrays the region finds are the launch arguments, their aggregate, and the bias vector as a row. -/
theorem regionLayer_eq (c : Dev nD) : regionLayer m c
    = Cert.Sage.layer (M := 100000) (m ((c : Thread nD τ).loc main_arg0))
        (aggregate (m ((c : Thread nD τ).loc main_arg0)) (m ((c : Thread nD τ).loc main_arg1)) (m ((c : Thread nD τ).loc main_arg2)))
        (m ((c : Thread nD τ).loc main_arg3)) (m ((c : Thread nD τ).loc main_arg4))
        (fun q => (m ((c : Thread nD τ).loc main_arg5) : S64.Idx → EReal) (ix1 q)) := by
  have hb : (fun q : Fin 64 => biasRow m c (ix2 0 q)) = fun q => (m ((c : Thread nD τ).loc main_arg5) : S64.Idx → EReal) (ix1 q) :=
    funext fun q => by
      show (V m c main_v19 : S1x64.Idx → EReal) (ix2 0 q) = _
      rw [entry_biasRow m c]
      exact row_at _ q
  unfold regionLayer
  rw [hb]
  show Cert.Sage.layer (M := 100000) (V m c main_arg0 : S100000x64.Idx → EReal) (V m c main_v18 : S100000x64.Idx → EReal)
    (V m c main_arg3 : S64x64.Idx → EReal) (V m c main_arg4 : S64x64.Idx → EReal) _ = _
  rw [V_main_arg0 m c, V_main_arg3 m c, V_main_arg4 m c, entry_aggregate m c]

/-- The run, read: the result array at the layer of the launch arguments, the arguments unchanged. -/
theorem run : θ_run defs (onTc (τ := τ) (main (F := Ideal))) ⟨m, fun _ => 0, ρ⟩ fun r => ∀ c : Dev nD,
      r.2.mem ((c : Thread nD τ).loc main_v20)
        = Cert.Sage.layer (M := 100000) (m ((c : Thread nD τ).loc main_arg0))
            (aggregate (m ((c : Thread nD τ).loc main_arg0)) (m ((c : Thread nD τ).loc main_arg1)) (m ((c : Thread nD τ).loc main_arg2)))
            (m ((c : Thread nD τ).loc main_arg3)) (m ((c : Thread nD τ).loc main_arg4))
            (fun q => (m ((c : Thread nD τ).loc main_arg5) : S64.Idx → EReal) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final_regionLayer m c).trans (regionLayer_eq m c)), (h c).2⟩)
    (Value.run_blocks m ρ)

end Cert.KernelIdeal.Hand

end
-- ==== Proof.ReferenceLayer.lean ====
/-
  The reference's result array is the layer of its arguments.

  The reference multiplies the whole feature array and the whole aggregate by the weight matrices on the host,
  adds the two products and the bias repeated down the rows, and clips below at zero. Read at an index (i₀, i₁)
  through its stages, one operation at a time, this is `Sage.entry` of row i₀ of the features and of the
  aggregate, column i₁ of each weight matrix and bias entry i₁: the stages' index functions are the row, column
  and entry constructors, coordinate by coordinate.
-/
import proofs.«142772_j76682346102897_1_alg».proof.Proof.Gen.ReferenceIdeal.Read
import proofs.«142772_j76682346102897_1_alg».proof.Proof.SageEntry

noncomputable section

namespace Cert.ReferenceIdeal.Hand

open Idealize.ShloMosaic Idealize.ShloMosaic.ValueIdx
open Cert.ReferenceIdeal Cert.ReferenceIdeal.Read

/-- The feature-side operand of the first product at (i, k): row i₀, coordinate k. -/
theorem featRow (i : S100000x64.Idx) (k : Fin 64) : lidx_main_v19 i k = ix2 ⟨(i 0).val, idx2_lt0 i⟩ k :=
  funext fun a => Fin.ext (by match a with | ⟨0, _⟩ => rfl | ⟨1, _⟩ => rfl)
/-- Its weight-side operand: coordinate k, column i₁. -/
theorem selfCol (i : S100000x64.Idx) (k : Fin 64) : ridx_main_v19 i k = ix2 k ⟨(i 1).val, idx2_lt1 i⟩ :=
  funext fun a => Fin.ext (by match a with | ⟨0, _⟩ => rfl | ⟨1, _⟩ => rfl)
/-- The aggregate-side operand of the second product. -/
theorem aggRow (i : S100000x64.Idx) (k : Fin 64) : lidx_main_v20 i k = ix2 ⟨(i 0).val, idx2_lt0 i⟩ k :=
  funext fun a => Fin.ext (by match a with | ⟨0, _⟩ => rfl | ⟨1, _⟩ => rfl)
/-- Its weight-side operand. -/
theorem neighCol (i : S100000x64.Idx) (k : Fin 64) : ridx_main_v20 i k = ix2 k ⟨(i 1).val, idx2_lt1 i⟩ :=
  funext fun a => Fin.ext (by match a with | ⟨0, _⟩ => rfl | ⟨1, _⟩ => rfl)
/-- The bias repeated down the rows reads, at i, the bias entry i₁. -/
theorem biasEntry (i : S100000x64.Idx) : idx_main_v22 (idx_main_v23 i) = ix1 ⟨(i 1).val, idx2_lt1 i⟩ :=
  funext fun a => Fin.ext (by match a with | ⟨0, _⟩ => rfl)

/-- The reference's result stage is the layer over all 100000 rows, with the aggregate its own stage. -/
theorem result_eq_layer (x0 : (⟨S100000x64, .f32⟩ : BufTy).Contents (Elt Ideal)) (x1 x2 : (⟨S1600000, .i32⟩ : BufTy).Contents (Elt Ideal))
    (x3 x4 : (⟨S64x64, .f32⟩ : BufTy).Contents (Elt Ideal)) (x5 : (⟨S64, .f32⟩ : BufTy).Contents (Elt Ideal)) :
    val_main_v25 (F := Ideal) x0 x1 x2 x3 x4 x5
      = Cert.Sage.layer (M := 100000) x0 (val_main_v18 (F := Ideal) x0 x1 x2) x3 x4 (fun q => x5 (ix1 q)) := by
  funext i
  rw [val_main_v25_apply, val_main_v24_apply, val_main_v21_apply, val_main_v19_apply, val_main_v20_apply, val_main_v23_apply,
    val_main_v22_apply, val_main_call0_v0_apply, val_main_call0_cst_apply]
  simp only [featRow, selfCol, aggRow, neighCol, biasEntry]
  rfl

end Cert.ReferenceIdeal.Hand

end
-- ==== Proof.lean ====
/-
  A mean-aggregating graph layer: the kernel against its reference, over the extended reals.

  Both programs first compute, on the host and by the same operations, the mean of each node's in-neighbours'
  feature rows (gather the source rows, scatter-add them at the target rows, divide by the in-degree clipped
  at one): `Aggregate` carries it as one function and never opens it. The dense stage is then, entry by entry,

      out(p, q) = max ( Σₖ feat(p, k)·W_self(k, q) + Σₖ agg(p, k)·W_neigh(k, q) + bias(q), 0 )      (`SageEntry`).

  The kernel computes it block by block, 10000 rows at each of 10 grid points, each block's two matrix products
  into a zero accumulator being the plain sums at the extended reals and the changes of float format the identity
  (`BlockPayload`); the ten blocks written back tile the array (`KernelLayer`). The reference computes it with
  two whole-array products on the host, read one stage at a time (`ReferenceLayer`). The two sides are the same
  function of the same rows, columns and bias entry, in the same order of additions, so no law of the extended
  reals beyond reading at an index is needed, and the precondition on the inputs is not used.
  The three frames: the two kernel programs' are their generated frame certificates; the reference's is its
  generated run with the result dropped. The idealization rewrote no operation, so `preserves` is trivial.
-/
import proofs.«142772_j76682346102897_1_alg».proof.Defs
import proofs.«142772_j76682346102897_1_alg».proof.Proof.Gen.Kernel
import proofs.«142772_j76682346102897_1_alg».proof.Proof.Gen.Kernel.Skeleton
import proofs.«142772_j76682346102897_1_alg».proof.Proof.Gen.Kernel.Launch
import proofs.«142772_j76682346102897_1_alg».proof.Proof.Gen.Kernel.Points
import proofs.«142772_j76682346102897_1_alg».proof.Proof.Gen.Kernel.Frame
import proofs.«142772_j76682346102897_1_alg».proof.Proof.Gen.KernelIdeal
import proofs.«142772_j76682346102897_1_alg».proof.Proof.Gen.KernelIdeal.Skeleton
import proofs.«142772_j76682346102897_1_alg».proof.Proof.Gen.KernelIdeal.Launch
import proofs.«142772_j76682346102897_1_alg».proof.Proof.Gen.KernelIdeal.Points
import proofs.«142772_j76682346102897_1_alg».proof.Proof.Gen.KernelIdeal.Frame
import proofs.«142772_j76682346102897_1_alg».proof.Proof.Gen.ReferenceIdeal
import proofs.«142772_j76682346102897_1_alg».proof.Proof.Gen.Pre_finite_inputs
import proofs.«142772_j76682346102897_1_alg».proof.Proof.Gen.KernelIdeal.Value
import proofs.«142772_j76682346102897_1_alg».proof.Proof.Gen.ReferenceIdeal.Run
import proofs.«142772_j76682346102897_1_alg».proof.Proof.Gen.ReferenceIdeal.Read
import proofs.«142772_j76682346102897_1_alg».proof.Proof.KernelLayer
import proofs.«142772_j76682346102897_1_alg».proof.Proof.ReferenceLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at the layer of the
    features, their aggregate, the two weight matrices and the bias: the kernel by its ten blocks, the reference by
    its stages, the aggregate the same function on both sides. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v25_eq, Cert.ReferenceIdeal.Hand.result_eq_layer,
    ← Cert.KernelIdeal.Hand.aggregate_eq_reference, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
